-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x31x512x512 : Shape := ⟨4, ![4, 31, 512, 512]⟩
abbrev S_ : Shape := ⟨0, ![]⟩

class Facts : Prop where
  bcast_S_S4x31x512x512 : S_.BroadcastsInDim S4x31x512x512 (![] : Fin 0 → Fin S4x31x512x512.rank)
  reducesTo_S4x31x512x512_S_d0_1_2_3 : S4x31x512x512.ReducesTo [0, 1, 2, 3] S_
  h_S_ : 0 < S_.numel

variable [Facts]

def fn {F : FTy → Type} [FloatOps F] (main_arg0 : FVec F S4x31x512x512 .f32) : IVec S_ 1 :=
  let main_v0 : FVec F S4x31x512x512 .f32 := Host.absf main_arg0
  let main_cst : FVec F S_ .f32 := constant S_ .f32 0x7F800000#32
  let main_v1 : FVec F S4x31x512x512 .f32 := broadcastInDim S4x31x512x512 ![] bcast_S_S4x31x512x512 main_cst
  let main_v2 : IVec S4x31x512x512 1 := cmpf .olt main_v0 main_v1
  let main_c : IVec S_ 1 := constantI S_ 1 1#1
  let main_v3 : IVec S_ 1 := (fun x v => Host.reduce IntOp.andi x v reducesTo_S4x31x512x512_S_d0_1_2_3 h_S_) main_v2 main_c
  main_v3
-- ==== Kernel.lean ====
abbrev S4x31x512x512 : Shape := ⟨4, ![4, 31, 512, 512]⟩
abbrev S4x31x7x512x512 : Shape := ⟨5, ![4, 31, 7, 512, 512]⟩
abbrev S1x31x32x512 : Shape := ⟨4, ![1, 31, 32, 512]⟩
abbrev S1x31x7x32x512 : Shape := ⟨5, ![1, 31, 7, 32, 512]⟩
abbrev S1x1x32x512 : Shape := ⟨4, ![1, 1, 32, 512]⟩
abbrev S32x512 : Shape := ⟨2, ![32, 512]⟩
abbrev S1x1x1x32x512 : Shape := ⟨5, ![1, 1, 1, 32, 512]⟩
abbrev S1x4x32x512 : Shape := ⟨4, ![1, 4, 32, 512]⟩
abbrev S4x32x512 : Shape := ⟨3, ![4, 32, 512]⟩
abbrev S1x1x4x32x512 : Shape := ⟨5, ![1, 1, 4, 32, 512]⟩
abbrev S1x5x32x512 : Shape := ⟨4, ![1, 5, 32, 512]⟩
abbrev S5x32x512 : Shape := ⟨3, ![5, 32, 512]⟩
abbrev S1x1x5x32x512 : Shape := ⟨5, ![1, 1, 5, 32, 512]⟩
abbrev S1x6x32x512 : Shape := ⟨4, ![1, 6, 32, 512]⟩
abbrev S6x32x512 : Shape := ⟨3, ![6, 32, 512]⟩
abbrev S1x1x6x32x512 : Shape := ⟨5, ![1, 1, 6, 32, 512]⟩
abbrev S1x7x32x512 : Shape := ⟨4, ![1, 7, 32, 512]⟩
abbrev S7x32x512 : Shape := ⟨3, ![7, 32, 512]⟩
abbrev S1x1x7x32x512 : Shape := ⟨5, ![1, 1, 7, 32, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x31x512x512, .f32⟩
  | .hbm, ⟨1, _⟩ => ⟨S4x31x7x512x512, .f32⟩
  | .local _ .vmem, ⟨0, _⟩ => ⟨S1x31x32x512, .f32⟩
  | .local _ .vmem, ⟨1, _⟩ => ⟨S1x31x32x512, .f32⟩
  | .local _ .vmem, ⟨2, _⟩ => ⟨S1x31x7x32x512, .f32⟩
  | .local _ .vmem, ⟨3, _⟩ => ⟨S1x31x7x32x512, .f32⟩
  | _, _ => ⟨S4x31x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x31x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x7x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x31x32x512_S1x1x32x512_0_2_0_0 : ∀ a, (![0, 2, 0, 0] : Fin 4 → Nat) a + S1x1x32x512.size a ≤ S1x31x32x512.size a
  h_S1x1x32x512 : 0 < S1x1x32x512.numel
  shapeCasts_S1x1x32x512_S32x512 : S1x1x32x512.ShapeCasts S32x512
  inb_S1x31x7x32x512_S1x1x1x32x512_0_0_0_0_0 : ∀ a, (![0, 0, 0, 0, 0] : Fin 5 → Nat) a + S1x1x1x32x512.size a ≤ S1x31x7x32x512.size a
  h_S1x1x1x32x512 : 0 < S1x1x1x32x512.numel
  shapeCasts_S1x1x1x32x512_S32x512 : S1x1x1x32x512.ShapeCasts S32x512
  shapeCasts_S32x512_S1x1x1x32x512 : S32x512.ShapeCasts S1x1x1x32x512
  inb_S1x31x32x512_S1x1x32x512_0_1_0_0 : ∀ a, (![0, 1, 0, 0] : Fin 4 → Nat) a + S1x1x32x512.size a ≤ S1x31x32x512.size a
  inb_S1x31x7x32x512_S1x1x1x32x512_0_0_1_0_0 : ∀ a, (![0, 0, 1, 0, 0] : Fin 5 → Nat) a + S1x1x1x32x512.size a ≤ S1x31x7x32x512.size a
  inb_S1x31x32x512_S1x1x32x512_0_0_0_0 : ∀ a, (![0, 0, 0, 0] : Fin 4 → Nat) a + S1x1x32x512.size a ≤ S1x31x32x512.size a
  inb_S1x31x7x32x512_S1x1x1x32x512_0_0_2_0_0 : ∀ a, (![0, 0, 2, 0, 0] : Fin 5 → Nat) a + S1x1x1x32x512.size a ≤ S1x31x7x32x512.size a
  inb_S1x31x32x512_S1x4x32x512_0_0_0_0 : ∀ a, (![0, 0, 0, 0] : Fin 4 → Nat) a + S1x4x32x512.size a ≤ S1x31x32x512.size a
  h_S1x4x32x512 : 0 < S1x4x32x512.numel
  shapeCasts_S1x4x32x512_S4x32x512 : S1x4x32x512.ShapeCasts S4x32x512
  inb_S1x31x7x32x512_S1x1x4x32x512_0_0_3_0_0 : ∀ a, (![0, 0, 3, 0, 0] : Fin 5 → Nat) a + S1x1x4x32x512.size a ≤ S1x31x7x32x512.size a
  h_S1x1x4x32x512 : 0 < S1x1x4x32x512.numel
  shapeCasts_S1x1x4x32x512_S4x32x512 : S1x1x4x32x512.ShapeCasts S4x32x512
  shapeCasts_S4x32x512_S1x1x4x32x512 : S4x32x512.ShapeCasts S1x1x4x32x512
  inb_S1x31x7x32x512_S1x1x1x32x512_0_1_0_0_0 : ∀ a, (![0, 1, 0, 0, 0] : Fin 5 → Nat) a + S1x1x1x32x512.size a ≤ S1x31x7x32x512.size a
  inb_S1x31x7x32x512_S1x1x1x32x512_0_1_1_0_0 : ∀ a, (![0, 1, 1, 0, 0] : Fin 5 → Nat) a + S1x1x1x32x512.size a ≤ S1x31x7x32x512.size a
  inb_S1x31x32x512_S1x5x32x512_0_0_0_0 : ∀ a, (![0, 0, 0, 0] : Fin 4 → Nat) a + S1x5x32x512.size a ≤ S1x31x32x512.size a
  h_S1x5x32x512 : 0 < S1x5x32x512.numel
  shapeCasts_S1x5x32x512_S5x32x512 : S1x5x32x512.ShapeCasts S5x32x512
  inb_S1x31x7x32x512_S1x1x5x32x512_0_1_2_0_0 : ∀ a, (![0, 1, 2, 0, 0] : Fin 5 → Nat) a + S1x1x5x32x512.size a ≤ S1x31x7x32x512.size a
  h_S1x1x5x32x512 : 0 < S1x1x5x32x512.numel
  shapeCasts_S1x1x5x32x512_S5x32x512 : S1x1x5x32x512.ShapeCasts S5x32x512
  shapeCasts_S5x32x512_S1x1x5x32x512 : S5x32x512.ShapeCasts S1x1x5x32x512
  inb_S1x31x7x32x512_S1x1x1x32x512_0_2_0_0_0 : ∀ a, (![0, 2, 0, 0, 0] : Fin 5 → Nat) a + S1x1x1x32x512.size a ≤ S1x31x7x32x512.size a
  inb_S1x31x32x512_S1x6x32x512_0_0_0_0 : ∀ a, (![0, 0, 0, 0] : Fin 4 → Nat) a + S1x6x32x512.size a ≤ S1x31x32x512.size a
  h_S1x6x32x512 : 0 < S1x6x32x512.numel
  shapeCasts_S1x6x32x512_S6x32x512 : S1x6x32x512.ShapeCasts S6x32x512
  inb_S1x31x7x32x512_S1x1x6x32x512_0_2_1_0_0 : ∀ a, (![0, 2, 1, 0, 0] : Fin 5 → Nat) a + S1x1x6x32x512.size a ≤ S1x31x7x32x512.size a
  h_S1x1x6x32x512 : 0 < S1x1x6x32x512.numel
  shapeCasts_S1x1x6x32x512_S6x32x512 : S1x1x6x32x512.ShapeCasts S6x32x512
  shapeCasts_S6x32x512_S1x1x6x32x512 : S6x32x512.ShapeCasts S1x1x6x32x512
  inb_S1x31x32x512_S1x7x32x512_0_0_0_0 : ∀ a, (![0, 0, 0, 0] : Fin 4 → Nat) a + S1x7x32x512.size a ≤ S1x31x32x512.size a
  h_S1x7x32x512 : 0 < S1x7x32x512.numel
  shapeCasts_S1x7x32x512_S7x32x512 : S1x7x32x512.ShapeCasts S7x32x512
  inb_S1x31x7x32x512_S1x1x7x32x512_0_3_0_0_0 : ∀ a, (![0, 3, 0, 0, 0] : Fin 5 → Nat) a + S1x1x7x32x512.size a ≤ S1x31x7x32x512.size a
  h_S1x1x7x32x512 : 0 < S1x1x7x32x512.numel
  shapeCasts_S1x1x7x32x512_S7x32x512 : S1x1x7x32x512.ShapeCasts S7x32x512
  shapeCasts_S7x32x512_S1x1x7x32x512 : S7x32x512.ShapeCasts S1x1x7x32x512
  inb_S1x31x32x512_S1x7x32x512_0_1_0_0 : ∀ a, (![0, 1, 0, 0] : Fin 4 → Nat) a + S1x7x32x512.size a ≤ S1x31x32x512.size a
  inb_S1x31x7x32x512_S1x1x7x32x512_0_4_0_0_0 : ∀ a, (![0, 4, 0, 0, 0] : Fin 5 → Nat) a + S1x1x7x32x512.size a ≤ S1x31x7x32x512.size a
  inb_S1x31x32x512_S1x7x32x512_0_2_0_0 : ∀ a, (![0, 2, 0, 0] : Fin 4 → Nat) a + S1x7x32x512.size a ≤ S1x31x32x512.size a
  inb_S1x31x7x32x512_S1x1x7x32x512_0_5_0_0_0 : ∀ a, (![0, 5, 0, 0, 0] : Fin 5 → Nat) a + S1x1x7x32x512.size a ≤ S1x31x7x32x512.size a
  inb_S1x31x32x512_S1x7x32x512_0_3_0_0 : ∀ a, (![0, 3, 0, 0] : Fin 4 → Nat) a + S1x7x32x512.size a ≤ S1x31x32x512.size a
  inb_S1x31x7x32x512_S1x1x7x32x512_0_6_0_0_0 : ∀ a, (![0, 6, 0, 0, 0] : Fin 5 → Nat) a + S1x1x7x32x512.size a ≤ S1x31x7x32x512.size a
  inb_S1x31x32x512_S1x7x32x512_0_4_0_0 : ∀ a, (![0, 4, 0, 0] : Fin 4 → Nat) a + S1x7x32x512.size a ≤ S1x31x32x512.size a
  inb_S1x31x7x32x512_S1x1x7x32x512_0_7_0_0_0 : ∀ a, (![0, 7, 0, 0, 0] : Fin 5 → Nat) a + S1x1x7x32x512.size a ≤ S1x31x7x32x512.size a
  inb_S1x31x32x512_S1x7x32x512_0_5_0_0 : ∀ a, (![0, 5, 0, 0] : Fin 4 → Nat) a + S1x7x32x512.size a ≤ S1x31x32x512.size a
  inb_S1x31x7x32x512_S1x1x7x32x512_0_8_0_0_0 : ∀ a, (![0, 8, 0, 0, 0] : Fin 5 → Nat) a + S1x1x7x32x512.size a ≤ S1x31x7x32x512.size a
  inb_S1x31x32x512_S1x7x32x512_0_6_0_0 : ∀ a, (![0, 6, 0, 0] : Fin 4 → Nat) a + S1x7x32x512.size a ≤ S1x31x32x512.size a
  inb_S1x31x7x32x512_S1x1x7x32x512_0_9_0_0_0 : ∀ a, (![0, 9, 0, 0, 0] : Fin 5 → Nat) a + S1x1x7x32x512.size a ≤ S1x31x7x32x512.size a
  inb_S1x31x32x512_S1x7x32x512_0_7_0_0 : ∀ a, (![0, 7, 0, 0] : Fin 4 → Nat) a + S1x7x32x512.size a ≤ S1x31x32x512.size a
  inb_S1x31x7x32x512_S1x1x7x32x512_0_10_0_0_0 : ∀ a, (![0, 10, 0, 0, 0] : Fin 5 → Nat) a + S1x1x7x32x512.size a ≤ S1x31x7x32x512.size a
  inb_S1x31x32x512_S1x7x32x512_0_8_0_0 : ∀ a, (![0, 8, 0, 0] : Fin 4 → Nat) a + S1x7x32x512.size a ≤ S1x31x32x512.size a
  inb_S1x31x7x32x512_S1x1x7x32x512_0_11_0_0_0 : ∀ a, (![0, 11, 0, 0, 0] : Fin 5 → Nat) a + S1x1x7x32x512.size a ≤ S1x31x7x32x512.size a
  inb_S1x31x32x512_S1x7x32x512_0_9_0_0 : ∀ a, (![0, 9, 0, 0] : Fin 4 → Nat) a + S1x7x32x512.size a ≤ S1x31x32x512.size a
  inb_S1x31x7x32x512_S1x1x7x32x512_0_12_0_0_0 : ∀ a, (![0, 12, 0, 0, 0] : Fin 5 → Nat) a + S1x1x7x32x512.size a ≤ S1x31x7x32x512.size a
  inb_S1x31x32x512_S1x7x32x512_0_10_0_0 : ∀ a, (![0, 10, 0, 0] : Fin 4 → Nat) a + S1x7x32x512.size a ≤ S1x31x32x512.size a
  inb_S1x31x7x32x512_S1x1x7x32x512_0_13_0_0_0 : ∀ a, (![0, 13, 0, 0, 0] : Fin 5 → Nat) a + S1x1x7x32x512.size a ≤ S1x31x7x32x512.size a
  inb_S1x31x32x512_S1x7x32x512_0_11_0_0 : ∀ a, (![0, 11, 0, 0] : Fin 4 → Nat) a + S1x7x32x512.size a ≤ S1x31x32x512.size a
  inb_S1x31x7x32x512_S1x1x7x32x512_0_14_0_0_0 : ∀ a, (![0, 14, 0, 0, 0] : Fin 5 → Nat) a + S1x1x7x32x512.size a ≤ S1x31x7x32x512.size a
  inb_S1x31x32x512_S1x7x32x512_0_12_0_0 : ∀ a, (![0, 12, 0, 0] : Fin 4 → Nat) a + S1x7x32x512.size a ≤ S1x31x32x512.size a
  inb_S1x31x7x32x512_S1x1x7x32x512_0_15_0_0_0 : ∀ a, (![0, 15, 0, 0, 0] : Fin 5 → Nat) a + S1x1x7x32x512.size a ≤ S1x31x7x32x512.size a
  inb_S1x31x32x512_S1x7x32x512_0_13_0_0 : ∀ a, (![0, 13, 0, 0] : Fin 4 → Nat) a + S1x7x32x512.size a ≤ S1x31x32x512.size a
  inb_S1x31x7x32x512_S1x1x7x32x512_0_16_0_0_0 : ∀ a, (![0, 16, 0, 0, 0] : Fin 5 → Nat) a + S1x1x7x32x512.size a ≤ S1x31x7x32x512.size a
  inb_S1x31x32x512_S1x7x32x512_0_14_0_0 : ∀ a, (![0, 14, 0, 0] : Fin 4 → Nat) a + S1x7x32x512.size a ≤ S1x31x32x512.size a
  inb_S1x31x7x32x512_S1x1x7x32x512_0_17_0_0_0 : ∀ a, (![0, 17, 0, 0, 0] : Fin 5 → Nat) a + S1x1x7x32x512.size a ≤ S1x31x7x32x512.size a
  inb_S1x31x32x512_S1x7x32x512_0_15_0_0 : ∀ a, (![0, 15, 0, 0] : Fin 4 → Nat) a + S1x7x32x512.size a ≤ S1x31x32x512.size a
  inb_S1x31x7x32x512_S1x1x7x32x512_0_18_0_0_0 : ∀ a, (![0, 18, 0, 0, 0] : Fin 5 → Nat) a + S1x1x7x32x512.size a ≤ S1x31x7x32x512.size a
  inb_S1x31x32x512_S1x7x32x512_0_16_0_0 : ∀ a, (![0, 16, 0, 0] : Fin 4 → Nat) a + S1x7x32x512.size a ≤ S1x31x32x512.size a
  inb_S1x31x7x32x512_S1x1x7x32x512_0_19_0_0_0 : ∀ a, (![0, 19, 0, 0, 0] : Fin 5 → Nat) a + S1x1x7x32x512.size a ≤ S1x31x7x32x512.size a
  inb_S1x31x32x512_S1x7x32x512_0_17_0_0 : ∀ a, (![0, 17, 0, 0] : Fin 4 → Nat) a + S1x7x32x512.size a ≤ S1x31x32x512.size a
  inb_S1x31x7x32x512_S1x1x7x32x512_0_20_0_0_0 : ∀ a, (![0, 20, 0, 0, 0] : Fin 5 → Nat) a + S1x1x7x32x512.size a ≤ S1x31x7x32x512.size a
  inb_S1x31x32x512_S1x7x32x512_0_18_0_0 : ∀ a, (![0, 18, 0, 0] : Fin 4 → Nat) a + S1x7x32x512.size a ≤ S1x31x32x512.size a
  inb_S1x31x7x32x512_S1x1x7x32x512_0_21_0_0_0 : ∀ a, (![0, 21, 0, 0, 0] : Fin 5 → Nat) a + S1x1x7x32x512.size a ≤ S1x31x7x32x512.size a
  inb_S1x31x32x512_S1x7x32x512_0_19_0_0 : ∀ a, (![0, 19, 0, 0] : Fin 4 → Nat) a + S1x7x32x512.size a ≤ S1x31x32x512.size a
  inb_S1x31x7x32x512_S1x1x7x32x512_0_22_0_0_0 : ∀ a, (![0, 22, 0, 0, 0] : Fin 5 → Nat) a + S1x1x7x32x512.size a ≤ S1x31x7x32x512.size a
  inb_S1x31x32x512_S1x7x32x512_0_20_0_0 : ∀ a, (![0, 20, 0, 0] : Fin 4 → Nat) a + S1x7x32x512.size a ≤ S1x31x32x512.size a
  inb_S1x31x7x32x512_S1x1x7x32x512_0_23_0_0_0 : ∀ a, (![0, 23, 0, 0, 0] : Fin 5 → Nat) a + S1x1x7x32x512.size a ≤ S1x31x7x32x512.size a
  inb_S1x31x32x512_S1x7x32x512_0_21_0_0 : ∀ a, (![0, 21, 0, 0] : Fin 4 → Nat) a + S1x7x32x512.size a ≤ S1x31x32x512.size a
  inb_S1x31x7x32x512_S1x1x7x32x512_0_24_0_0_0 : ∀ a, (![0, 24, 0, 0, 0] : Fin 5 → Nat) a + S1x1x7x32x512.size a ≤ S1x31x7x32x512.size a
  inb_S1x31x32x512_S1x7x32x512_0_22_0_0 : ∀ a, (![0, 22, 0, 0] : Fin 4 → Nat) a + S1x7x32x512.size a ≤ S1x31x32x512.size a
  inb_S1x31x7x32x512_S1x1x7x32x512_0_25_0_0_0 : ∀ a, (![0, 25, 0, 0, 0] : Fin 5 → Nat) a + S1x1x7x32x512.size a ≤ S1x31x7x32x512.size a
  inb_S1x31x32x512_S1x7x32x512_0_23_0_0 : ∀ a, (![0, 23, 0, 0] : Fin 4 → Nat) a + S1x7x32x512.size a ≤ S1x31x32x512.size a
  inb_S1x31x7x32x512_S1x1x7x32x512_0_26_0_0_0 : ∀ a, (![0, 26, 0, 0, 0] : Fin 5 → Nat) a + S1x1x7x32x512.size a ≤ S1x31x7x32x512.size a
  inb_S1x31x32x512_S1x7x32x512_0_24_0_0 : ∀ a, (![0, 24, 0, 0] : Fin 4 → Nat) a + S1x7x32x512.size a ≤ S1x31x32x512.size a
  inb_S1x31x7x32x512_S1x1x7x32x512_0_27_0_0_0 : ∀ a, (![0, 27, 0, 0, 0] : Fin 5 → Nat) a + S1x1x7x32x512.size a ≤ S1x31x7x32x512.size a
  inb_S1x31x32x512_S1x6x32x512_0_25_0_0 : ∀ a, (![0, 25, 0, 0] : Fin 4 → Nat) a + S1x6x32x512.size a ≤ S1x31x32x512.size a
  inb_S1x31x7x32x512_S1x1x6x32x512_0_28_0_0_0 : ∀ a, (![0, 28, 0, 0, 0] : Fin 5 → Nat) a + S1x1x6x32x512.size a ≤ S1x31x7x32x512.size a
  inb_S1x31x32x512_S1x1x32x512_0_30_0_0 : ∀ a, (![0, 30, 0, 0] : Fin 4 → Nat) a + S1x1x32x512.size a ≤ S1x31x32x512.size a
  inb_S1x31x7x32x512_S1x1x1x32x512_0_28_6_0_0 : ∀ a, (![0, 28, 6, 0, 0] : Fin 5 → Nat) a + S1x1x1x32x512.size a ≤ S1x31x7x32x512.size a
  inb_S1x31x32x512_S1x5x32x512_0_26_0_0 : ∀ a, (![0, 26, 0, 0] : Fin 4 → Nat) a + S1x5x32x512.size a ≤ S1x31x32x512.size a
  inb_S1x31x7x32x512_S1x1x5x32x512_0_29_0_0_0 : ∀ a, (![0, 29, 0, 0, 0] : Fin 5 → Nat) a + S1x1x5x32x512.size a ≤ S1x31x7x32x512.size a
  inb_S1x31x7x32x512_S1x1x1x32x512_0_29_5_0_0 : ∀ a, (![0, 29, 5, 0, 0] : Fin 5 → Nat) a + S1x1x1x32x512.size a ≤ S1x31x7x32x512.size a
  inb_S1x31x32x512_S1x1x32x512_0_29_0_0 : ∀ a, (![0, 29, 0, 0] : Fin 4 → Nat) a + S1x1x32x512.size a ≤ S1x31x32x512.size a
  inb_S1x31x7x32x512_S1x1x1x32x512_0_29_6_0_0 : ∀ a, (![0, 29, 6, 0, 0] : Fin 5 → Nat) a + S1x1x1x32x512.size a ≤ S1x31x7x32x512.size a
  inb_S1x31x32x512_S1x4x32x512_0_27_0_0 : ∀ a, (![0, 27, 0, 0] : Fin 4 → Nat) a + S1x4x32x512.size a ≤ S1x31x32x512.size a
  inb_S1x31x7x32x512_S1x1x4x32x512_0_30_0_0_0 : ∀ a, (![0, 30, 0, 0, 0] : Fin 5 → Nat) a + S1x1x4x32x512.size a ≤ S1x31x7x32x512.size a
  inb_S1x31x7x32x512_S1x1x1x32x512_0_30_4_0_0 : ∀ a, (![0, 30, 4, 0, 0] : Fin 5 → Nat) a + S1x1x1x32x512.size a ≤ S1x31x7x32x512.size a
  inb_S1x31x7x32x512_S1x1x1x32x512_0_30_5_0_0 : ∀ a, (![0, 30, 5, 0, 0] : Fin 5 → Nat) a + S1x1x1x32x512.size a ≤ S1x31x7x32x512.size a
  inb_S1x31x32x512_S1x1x32x512_0_28_0_0 : ∀ a, (![0, 28, 0, 0] : Fin 4 → Nat) a + S1x1x32x512.size a ≤ S1x31x32x512.size a
  inb_S1x31x7x32x512_S1x1x1x32x512_0_30_6_0_0 : ∀ a, (![0, 30, 6, 0, 0] : Fin 5 → Nat) a + S1x1x1x32x512.size a ≤ S1x31x7x32x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x31x32x512.size a ≤ S4x31x512x512.size a
  hwx0_0 : ∀ i : grid0.Coords, EltTy.bits .f32 = 32 ∨ (Rect.block (s := S4x31x512x512) S1x31x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x31x7x32x512.size a ≤ S4x31x7x512x512.size a
  hwx0_1 : ∀ i : grid0.Coords, EltTy.bits .f32 = 32 ∨ (Rect.block (s := S4x31x7x512x512) S1x31x7x32x512.size (cc0_transform_1 i) (hinb0_1 i)).WholeWords (EltTy.packing .f32)

variable [Facts₀]

abbrev win0_0 : Pipeline.Window sig grid0 :=
  Pipeline.Window.ofSpec (Memref.whole main_arg0) S1x31x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x31x7x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x31x512x512 : Shape := ⟨4, ![4, 31, 512, 512]⟩
abbrev S31x7 : Shape := ⟨2, ![31, 7]⟩
abbrev S_ : Shape := ⟨0, ![]⟩
abbrev S31x7x1 : Shape := ⟨3, ![31, 7, 1]⟩
abbrev S4x31x7x512x512 : Shape := ⟨5, ![4, 31, 7, 512, 512]⟩
abbrev S1x31x7x1x1 : Shape := ⟨5, ![1, 31, 7, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S4x31x512x512, .f32⟩
  | .hbm, ⟨1, _⟩ => ⟨S31x7, .i32⟩
  | .hbm, ⟨2, _⟩ => ⟨S31x7, .f32⟩
  | .hbm, ⟨3, _⟩ => ⟨S_, .i32⟩
  | .hbm, ⟨4, _⟩ => ⟨S31x7, .i32⟩
  | .hbm, ⟨5, _⟩ => ⟨S31x7, .i1⟩
  | .hbm, ⟨6, _⟩ => ⟨S_, .i32⟩
  | .hbm, ⟨7, _⟩ => ⟨S31x7, .i32⟩
  | .hbm, ⟨8, _⟩ => ⟨S31x7, .i32⟩
  | .hbm, ⟨9, _⟩ => ⟨S31x7, .i32⟩
  | .hbm, ⟨10, _⟩ => ⟨S31x7x1, .i32⟩
  | .hbm, ⟨11, _⟩ => ⟨S4x31x7x512x512, .f32⟩
  | .hbm, ⟨12, _⟩ => ⟨S1x31x7x1x1, .f32⟩
  | .hbm, ⟨13, _⟩ => ⟨S4x31x7x512x512, .f32⟩
  | .hbm, ⟨14, _⟩ => ⟨S4x31x7x512x512, .f32⟩
  | _, _ => ⟨S4x31x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S31x7 : S_.BroadcastsInDim S31x7 (![] : Fin 0 → Fin S31x7.rank)
  bcast_S31x7_S31x7x1_0_1 : S31x7.BroadcastsInDim S31x7x1 (![0, 1] : Fin 2 → Fin S31x7x1.rank)
  bcast_S31x7_S1x31x7x1x1_1_2 : S31x7.BroadcastsInDim S1x31x7x1x1 (![1, 2] : Fin 2 → Fin S1x31x7x1x1.rank)
  bcast_S1x31x7x1x1_S4x31x7x512x512_0_1_2_3_4 : S1x31x7x1x1.BroadcastsInDim S4x31x7x512x512 (![0, 1, 2, 3, 4] : Fin 5 → Fin S4x31x7x512x512.rank)
  gather_S4x31x512x512_S31x7x1_S4x31x7x512x512_034_1_n_n_1_2_41512512_wf : GatherDims.WF S4x31x512x512 S31x7x1 S4x31x7x512x512 [0, 3, 4] [1] [] [1] [] 2 ![4, 1, 512, 512]

variable [Facts₀]

def gather_S4x31x512x512_S31x7x1_S4x31x7x512x512_034_1_n_n_1_2_41512512 : GatherDims S4x31x512x512 S31x7x1 S4x31x7x512x512 where
  offsetDims := [0, 3, 4]
  collapsedSliceDims := [1]
  operandBatchingDims := []
  startIndicesBatchingDims := []
  startIndexMap := [1]
  indexVectorDim := 2
  sliceSizes := ![4, 1, 512, 512]
  wf := gather_S4x31x512x512_S31x7x1_S4x31x7x512x512_034_1_n_n_1_2_41512512_wf

class Facts : Prop extends Facts₀ where

variable [Facts]
-- ==== Proof.ChannelWindow.lean ====
/-
  The channel window with reflected ends, as one function.

  For 31 channels and a half-width of 3, output channel `c` at window position `j` (0 ≤ j < 7) shows input channel
  `t = c + j − 3`, reflected at both ends of the channel axis with the edge channel repeated: `t < 0` reads
  channel `−t − 1`, `t ≥ 31` reads channel `61 − t`. In naturals, with `s = c + j`: `2 − s` when `s < 3`, `64 − s` when
  `s ≥ 34`, and `s − 3` otherwise. The windowed array of `X : [B, 31, H, W]` is `[B, 31, 7, H, W]` with entry
  `(b, c, j, h, w)` equal to `X (b, srcChan c j, h, w)`.
-/
import Idealize.ShloMosaic.Lib.ValueIdx

namespace Cert.ChannelWindow

open Idealize.ShloMosaic Idealize.ShloMosaic.ValueIdx

/-- The input channel shown at window position `j` of output channel `c`: `c + j − 3` reflected into `[0, 30]`. -/
def srcChan (c j : Nat) : Nat :=
  if c + j < 3 then 2 - (c + j) else if 34 ≤ c + j then 64 - (c + j) else c + j - 3

theorem srcChan_lt {c j : Nat} (hc : c < 31) (hj : j < 7) : srcChan c j < 31 := by
  unfold srcChan; split_ifs <;> omega

/-- Inside a run of consecutive window positions that stays on one branch of the reflection the source channel
    advances with the position: the three forms a proof about one stored slab needs. -/
theorem srcChan_mid {c j : Nat} (h1 : 3 ≤ c + j) (h2 : c + j < 34) : srcChan c j = c + j - 3 := by
  unfold srcChan; rw [if_neg (by omega), if_neg (by omega)]

theorem srcChan_low {c j : Nat} (h : c + j < 3) : srcChan c j = 2 - (c + j) := by
  unfold srcChan; rw [if_pos h]

theorem srcChan_high {c j : Nat} (h : 34 ≤ c + j) : srcChan c j = 64 - (c + j) := by
  unfold srcChan; rw [if_neg (by omega), if_pos h]

/-- The source index of entry `i = (b, c, j, h, w)` of the windowed array: `(b, srcChan c j, h, w)`. -/
def srcIdx {B H W : Nat} (i : (⟨5, ![B, 31, 7, H, W]⟩ : Shape).Idx) : (⟨4, ![B, 31, H, W]⟩ : Shape).Idx :=
  ix4 (i 0) ⟨srcChan (i 1).val (i 2).val, srcChan_lt (i 1).isLt (i 2).isLt⟩ (i 3) (i 4)

/-- The windowed array of `X`. -/
def windowed {α : Type} {B H W : Nat} (X : (⟨4, ![B, 31, H, W]⟩ : Shape).Idx → α) :
    (⟨5, ![B, 31, 7, H, W]⟩ : Shape).Idx → α :=
  fun i => X (srcIdx i)

theorem windowed_apply {α : Type} {B H W : Nat} (X : (⟨4, ![B, 31, H, W]⟩ : Shape).Idx → α)
    (i : (⟨5, ![B, 31, 7, H, W]⟩ : Shape).Idx) : windowed X i = X (srcIdx i) := rfl

/-- Two indices with the same batch, row and column coordinates and the source channel on the channel axis are
    the source index: how a coordinate-wise computation meets `srcIdx`. -/
theorem eq_srcIdx {B H W : Nat} (i : (⟨5, ![B, 31, 7, H, W]⟩ : Shape).Idx) (k : (⟨4, ![B, 31, H, W]⟩ : Shape).Idx)
    (h0 : (k 0).val = (i 0).val) (h1 : (k 1).val = srcChan (i 1).val (i 2).val)
    (h2 : (k 2).val = (i 3).val) (h3 : (k 3).val = (i 4).val) : k = srcIdx i := by
  funext a
  match a with
  | ⟨0, _⟩ => exact Fin.ext h0
  | ⟨1, _⟩ => exact Fin.ext h1
  | ⟨2, _⟩ => exact Fin.ext h2
  | ⟨3, _⟩ => exact Fin.ext h3

end Cert.ChannelWindow
-- ==== Proof.SlabRead.lean ====
/-
  One stored slab of the channel window, read at an index.

  The body copies, for output channel `c`, a run of `n` consecutive window positions `j0 … j0 + n − 1` from `n`
  consecutive input channels `src … src + n − 1` of the input block `[1, 31, 32, 512]`: it loads the slab
  `[1, n, 32, 512]` at channel offset `src`, drops the unit axis, adds two unit axes in front and stores the
  `[1, 1, n, 32, 512]` result at `(0, c, j0, 0, 0)` of the output block `[1, 31, 7, 32, 512]`. A run of one
  position goes through `[32, 512]` instead. Where the source channel advances with the window position along the
  run (`srcChan c (j0 + k) = src + k`), the stored slab is the windowed block on its rectangle.
-/
import Idealize.ShloMosaic.Lib.Pipeline.Value
import Idealize.ShloMosaic.Lib.Pipeline.FrameBody
import proofs.«406440_j26912265076910_3_alg».proof.Proof.ChannelWindow

noncomputable section

namespace Cert.ChannelWindow

open Idealize.ShloMosaic Idealize.ShloMosaic.ValueIdx

variable {Val : EltTy → Type} {e : EltTy}

/-- A run of `n` window positions: the slab loaded at input channel `src`, re-laid as `[1, 1, n, 32, 512]`, is at
    every local index the windowed block at the index under the store's rectangle. -/
theorem slab_apply (n src c j0 : Nat) (X : (⟨4, ![1, 31, 32, 512]⟩ : Shape).Idx → Val e)
    (inbL : ∀ a, (![0, src, 0, 0] : Fin 4 → Nat) a + (![1, n, 32, 512] : Fin 4 → Nat) a ≤ (⟨4, ![1, 31, 32, 512]⟩ : Shape).size a)
    (inbS : ∀ a, (![0, c, j0, 0, 0] : Fin 5 → Nat) a + (![1, 1, n, 32, 512] : Fin 5 → Nat) a ≤ (⟨5, ![1, 31, 7, 32, 512]⟩ : Shape).size a)
    (h1 : (⟨4, ![1, n, 32, 512]⟩ : Shape).ShapeCasts ⟨3, ![n, 32, 512]⟩)
    (h2 : (⟨3, ![n, 32, 512]⟩ : Shape).ShapeCasts ⟨5, ![1, 1, n, 32, 512]⟩)
    (hsrc : ∀ k < n, srcChan c (j0 + k) = src + k)
    (x : (⟨5, ![1, 1, n, 32, 512]⟩ : Shape).Idx) :
    shapeCast ⟨5, ![1, 1, n, 32, 512]⟩
        (shapeCast ⟨3, ![n, 32, 512]⟩ (View.ld X (Rect.unit (s := ⟨4, ![1, 31, 32, 512]⟩) ![0, src, 0, 0] ![1, n, 32, 512] inbL)) h1) h2 x
      = windowed X ((Rect.unit (s := ⟨5, ![1, 31, 7, 32, 512]⟩) ![0, c, j0, 0, 0] ![1, 1, n, 32, 512] inbS).emb x) := by
  have b0 : (x 0).val < 1 := (x 0).isLt
  have b1 : (x 1).val < 1 := (x 1).isLt
  have b2 : (x 2).val < n := (x 2).isLt
  have b3 : (x 3).val < 32 := (x 3).isLt
  have b4 : (x 4).val < 512 := (x 4).isLt
  have z0 : (x 0).val = 0 := by omega
  have z1 : (x 1).val = 0 := by omega
  refine (shapeCast_apply _ h2 x (ix3 ⟨(x 2).val, b2⟩ ⟨(x 3).val, b3⟩ ⟨(x 4).val, b4⟩) ?_).trans ?_
  · rw [Shape.rowMajor_val_three, Shape.rowMajor_val_five]
    show ((x 2).val * 32 + (x 3).val) * 512 + (x 4).val
      = ((((x 0).val * 1 + (x 1).val) * n + (x 2).val) * 32 + (x 3).val) * 512 + (x 4).val
    rw [z0, z1]; omega
  refine (shapeCast_apply _ h1 _ (ix4 ⟨0, Nat.one_pos⟩ ⟨(x 2).val, b2⟩ ⟨(x 3).val, b3⟩ ⟨(x 4).val, b4⟩) ?_).trans ?_
  · rw [Shape.rowMajor_val_four, Shape.rowMajor_val_three]
    show ((0 * n + (x 2).val) * 32 + (x 3).val) * 512 + (x 4).val = ((x 2).val * 32 + (x 3).val) * 512 + (x 4).val
    omega
  show X ((Rect.unit (s := ⟨4, ![1, 31, 32, 512]⟩) ![0, src, 0, 0] ![1, n, 32, 512] inbL).idx _) = X (srcIdx _)
  refine congrArg X (eq_srcIdx _ _ ?_ ?_ ?_ ?_)
  · show 0 + 1 * 0 = 0 + 1 * (x 0).val
    omega
  · show src + 1 * (x 2).val = srcChan (c + 1 * (x 1).val) (j0 + 1 * (x 2).val)
    rw [z1, Nat.one_mul, Nat.mul_zero, Nat.add_zero, hsrc _ b2]
  · show 0 + 1 * (x 3).val = 0 + 1 * (x 3).val
    rfl
  · show 0 + 1 * (x 4).val = 0 + 1 * (x 4).val
    rfl

/-- A run of one window position: the one channel loaded at `src`, through `[32, 512]`, re-laid as
    `[1, 1, 1, 32, 512]`. -/
theorem single_apply (src c j0 : Nat) (X : (⟨4, ![1, 31, 32, 512]⟩ : Shape).Idx → Val e)
    (inbL : ∀ a, (![0, src, 0, 0] : Fin 4 → Nat) a + (![1, 1, 32, 512] : Fin 4 → Nat) a ≤ (⟨4, ![1, 31, 32, 512]⟩ : Shape).size a)
    (inbS : ∀ a, (![0, c, j0, 0, 0] : Fin 5 → Nat) a + (![1, 1, 1, 32, 512] : Fin 5 → Nat) a ≤ (⟨5, ![1, 31, 7, 32, 512]⟩ : Shape).size a)
    (h1 : (⟨4, ![1, 1, 32, 512]⟩ : Shape).ShapeCasts ⟨2, ![32, 512]⟩)
    (h2 : (⟨2, ![32, 512]⟩ : Shape).ShapeCasts ⟨5, ![1, 1, 1, 32, 512]⟩)
    (hsrc : srcChan c j0 = src)
    (x : (⟨5, ![1, 1, 1, 32, 512]⟩ : Shape).Idx) :
    shapeCast ⟨5, ![1, 1, 1, 32, 512]⟩
        (shapeCast ⟨2, ![32, 512]⟩ (View.ld X (Rect.unit (s := ⟨4, ![1, 31, 32, 512]⟩) ![0, src, 0, 0] ![1, 1, 32, 512] inbL)) h1) h2 x
      = windowed X ((Rect.unit (s := ⟨5, ![1, 31, 7, 32, 512]⟩) ![0, c, j0, 0, 0] ![1, 1, 1, 32, 512] inbS).emb x) := by
  have b0 : (x 0).val < 1 := (x 0).isLt
  have b1 : (x 1).val < 1 := (x 1).isLt
  have b2 : (x 2).val < 1 := (x 2).isLt
  have b3 : (x 3).val < 32 := (x 3).isLt
  have b4 : (x 4).val < 512 := (x 4).isLt
  have z0 : (x 0).val = 0 := by omega
  have z1 : (x 1).val = 0 := by omega
  have z2 : (x 2).val = 0 := by omega
  refine (shapeCast_apply _ h2 x (ix2 ⟨(x 3).val, b3⟩ ⟨(x 4).val, b4⟩) ?_).trans ?_
  · rw [Shape.rowMajor_val_two, Shape.rowMajor_val_five]
    show (x 3).val * 512 + (x 4).val
      = ((((x 0).val * 1 + (x 1).val) * 1 + (x 2).val) * 32 + (x 3).val) * 512 + (x 4).val
    rw [z0, z1, z2]; omega
  refine (shapeCast_apply _ h1 _ (ix4 ⟨0, Nat.one_pos⟩ ⟨0, Nat.one_pos⟩ ⟨(x 3).val, b3⟩ ⟨(x 4).val, b4⟩) ?_).trans ?_
  · rw [Shape.rowMajor_val_four, Shape.rowMajor_val_two]
    show ((0 * 1 + 0) * 32 + (x 3).val) * 512 + (x 4).val = (x 3).val * 512 + (x 4).val
    omega
  show X ((Rect.unit (s := ⟨4, ![1, 31, 32, 512]⟩) ![0, src, 0, 0] ![1, 1, 32, 512] inbL).idx _) = X (srcIdx _)
  refine congrArg X (eq_srcIdx _ _ ?_ ?_ ?_ ?_)
  · show 0 + 1 * 0 = 0 + 1 * (x 0).val
    omega
  · show src + 1 * 0 = srcChan (c + 1 * (x 1).val) (j0 + 1 * (x 2).val)
    rw [z1, z2, Nat.mul_zero, Nat.add_zero, Nat.add_zero, Nat.add_zero, hsrc]
  · show 0 + 1 * (x 3).val = 0 + 1 * (x 3).val
    rfl
  · show 0 + 1 * (x 4).val = 0 + 1 * (x 4).val
    rfl

end Cert.ChannelWindow

end
-- ==== Proof.KernelBlock.lean ====
/-
  What one grid point leaves in the output block: the windowed input block.

  The body's 43 stores write, for each output channel `c`, the runs of consecutive window positions whose source
  channels are consecutive: one run of seven for the interior channels `3 … 27`, and for the three channels at each
  end the reflected positions one by one beside the run that is not reflected. Each stored slab is the windowed
  block on its rectangle (the slab lemmas), the rectangles cover the block, so the block read back is the windowed
  input block, index by index.
-/
import proofs.«406440_j26912265076910_3_alg».proof.Proof.Gen.KernelIdeal.Frame
import proofs.«406440_j26912265076910_3_alg».proof.Proof.SlabRead

set_option maxRecDepth 16384

noncomputable section

namespace Cert.KernelIdeal.Block

open Cert.KernelIdeal Cert.KernelIdeal.Gen Idealize.ShloMosaic Idealize.ShloMosaic.TcCoe Idealize.ShloMosaic.Tactic
open Idealize.SL Idealize.SL.Sem
open Cert.ChannelWindow

variable {F : FTy → Type} [FloatOps F]

set_option maxHeartbeats 1000000 in
/-- The output block after the body, on any staging memrefs and for any input block `x0`, is the windowed `x0`:
    entry `(0, c, j, h, w)` is `x0 (0, srcChan c j, h, w)`. -/
theorem out_eq (c : Dev nD) (i : grid0.Coords) (arg2 : Memref sig .tc .vmem S1x31x32x512 .f32) (harg2 : arg2.IsWhole)
    (arg3 : Memref sig .tc .vmem S1x31x7x32x512 .f32) (harg3 : arg3.IsWhole) (x0 : Vec F S1x31x32x512 .f32) :
    out0_A_1 c i arg2 harg2 arg3 harg3 x0 = windowed (B := 1) (H := 32) (W := 512) x0 := by
  unfold out0_A_1
  rw [View.read_writes_eq_canon _ _ _ (cover0_A_1 c i arg2 harg2 arg3 harg3 x0)]
  funext y
  have hcov := cover0_A_1 c i arg2 harg2 arg3 harg3 x0 y
  revert hcov
  unfold kernelRun0_A
  dsimp only
  sl_unfold_words
  simp only [View.readAt_eq_ld, harg2.read_unread]
  intro hcov
  refine View.canon_apply_of_pieces (windowed (B := 1) (H := 32) (W := 512) x0) _ ?_ y hcov
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    exact single_apply 28 30 6 x0 (by decide) (by decide) (by decide) (by decide) (by decide) x
  · intro x
    exact single_apply 29 30 5 x0 (by decide) (by decide) (by decide) (by decide) (by decide) x
  · intro x
    exact single_apply 30 30 4 x0 (by decide) (by decide) (by decide) (by decide) (by decide) x
  · intro x
    exact slab_apply 4 27 30 0 x0 (by decide) (by decide) (by decide) (by decide)
      (fun k hk => by unfold srcChan; split_ifs <;> omega) x
  · intro x
    exact single_apply 29 29 6 x0 (by decide) (by decide) (by decide) (by decide) (by decide) x
  · intro x
    exact single_apply 30 29 5 x0 (by decide) (by decide) (by decide) (by decide) (by decide) x
  · intro x
    exact slab_apply 5 26 29 0 x0 (by decide) (by decide) (by decide) (by decide)
      (fun k hk => by unfold srcChan; split_ifs <;> omega) x
  · intro x
    exact single_apply 30 28 6 x0 (by decide) (by decide) (by decide) (by decide) (by decide) x
  · intro x
    exact slab_apply 6 25 28 0 x0 (by decide) (by decide) (by decide) (by decide)
      (fun k hk => by unfold srcChan; split_ifs <;> omega) x
  · intro x
    exact slab_apply 7 24 27 0 x0 (by decide) (by decide) (by decide) (by decide)
      (fun k hk => by unfold srcChan; split_ifs <;> omega) x
  · intro x
    exact slab_apply 7 23 26 0 x0 (by decide) (by decide) (by decide) (by decide)
      (fun k hk => by unfold srcChan; split_ifs <;> omega) x
  · intro x
    exact slab_apply 7 22 25 0 x0 (by decide) (by decide) (by decide) (by decide)
      (fun k hk => by unfold srcChan; split_ifs <;> omega) x
  · intro x
    exact slab_apply 7 21 24 0 x0 (by decide) (by decide) (by decide) (by decide)
      (fun k hk => by unfold srcChan; split_ifs <;> omega) x
  · intro x
    exact slab_apply 7 20 23 0 x0 (by decide) (by decide) (by decide) (by decide)
      (fun k hk => by unfold srcChan; split_ifs <;> omega) x
  · intro x
    exact slab_apply 7 19 22 0 x0 (by decide) (by decide) (by decide) (by decide)
      (fun k hk => by unfold srcChan; split_ifs <;> omega) x
  · intro x
    exact slab_apply 7 18 21 0 x0 (by decide) (by decide) (by decide) (by decide)
      (fun k hk => by unfold srcChan; split_ifs <;> omega) x
  · intro x
    exact slab_apply 7 17 20 0 x0 (by decide) (by decide) (by decide) (by decide)
      (fun k hk => by unfold srcChan; split_ifs <;> omega) x
  · intro x
    exact slab_apply 7 16 19 0 x0 (by decide) (by decide) (by decide) (by decide)
      (fun k hk => by unfold srcChan; split_ifs <;> omega) x
  · intro x
    exact slab_apply 7 15 18 0 x0 (by decide) (by decide) (by decide) (by decide)
      (fun k hk => by unfold srcChan; split_ifs <;> omega) x
  · intro x
    exact slab_apply 7 14 17 0 x0 (by decide) (by decide) (by decide) (by decide)
      (fun k hk => by unfold srcChan; split_ifs <;> omega) x
  · intro x
    exact slab_apply 7 13 16 0 x0 (by decide) (by decide) (by decide) (by decide)
      (fun k hk => by unfold srcChan; split_ifs <;> omega) x
  · intro x
    exact slab_apply 7 12 15 0 x0 (by decide) (by decide) (by decide) (by decide)
      (fun k hk => by unfold srcChan; split_ifs <;> omega) x
  · intro x
    exact slab_apply 7 11 14 0 x0 (by decide) (by decide) (by decide) (by decide)
      (fun k hk => by unfold srcChan; split_ifs <;> omega) x
  · intro x
    exact slab_apply 7 10 13 0 x0 (by decide) (by decide) (by decide) (by decide)
      (fun k hk => by unfold srcChan; split_ifs <;> omega) x
  · intro x
    exact slab_apply 7 9 12 0 x0 (by decide) (by decide) (by decide) (by decide)
      (fun k hk => by unfold srcChan; split_ifs <;> omega) x
  · intro x
    exact slab_apply 7 8 11 0 x0 (by decide) (by decide) (by decide) (by decide)
      (fun k hk => by unfold srcChan; split_ifs <;> omega) x
  · intro x
    exact slab_apply 7 7 10 0 x0 (by decide) (by decide) (by decide) (by decide)
      (fun k hk => by unfold srcChan; split_ifs <;> omega) x
  · intro x
    exact slab_apply 7 6 9 0 x0 (by decide) (by decide) (by decide) (by decide)
      (fun k hk => by unfold srcChan; split_ifs <;> omega) x
  · intro x
    exact slab_apply 7 5 8 0 x0 (by decide) (by decide) (by decide) (by decide)
      (fun k hk => by unfold srcChan; split_ifs <;> omega) x
  · intro x
    exact slab_apply 7 4 7 0 x0 (by decide) (by decide) (by decide) (by decide)
      (fun k hk => by unfold srcChan; split_ifs <;> omega) x
  · intro x
    exact slab_apply 7 3 6 0 x0 (by decide) (by decide) (by decide) (by decide)
      (fun k hk => by unfold srcChan; split_ifs <;> omega) x
  · intro x
    exact slab_apply 7 2 5 0 x0 (by decide) (by decide) (by decide) (by decide)
      (fun k hk => by unfold srcChan; split_ifs <;> omega) x
  · intro x
    exact slab_apply 7 1 4 0 x0 (by decide) (by decide) (by decide) (by decide)
      (fun k hk => by unfold srcChan; split_ifs <;> omega) x
  · intro x
    exact slab_apply 7 0 3 0 x0 (by decide) (by decide) (by decide) (by decide)
      (fun k hk => by unfold srcChan; split_ifs <;> omega) x
  · intro x
    exact slab_apply 6 0 2 1 x0 (by decide) (by decide) (by decide) (by decide)
      (fun k hk => by unfold srcChan; split_ifs <;> omega) x
  · intro x
    exact single_apply 0 2 0 x0 (by decide) (by decide) (by decide) (by decide) (by decide) x
  · intro x
    exact slab_apply 5 0 1 2 x0 (by decide) (by decide) (by decide) (by decide)
      (fun k hk => by unfold srcChan; split_ifs <;> omega) x
  · intro x
    exact single_apply 0 1 1 x0 (by decide) (by decide) (by decide) (by decide) (by decide) x
  · intro x
    exact single_apply 1 1 0 x0 (by decide) (by decide) (by decide) (by decide) (by decide) x
  · intro x
    exact slab_apply 4 0 0 3 x0 (by decide) (by decide) (by decide) (by decide)
      (fun k hk => by unfold srcChan; split_ifs <;> omega) x
  · intro x
    exact single_apply 0 0 2 x0 (by decide) (by decide) (by decide) (by decide) (by decide) x
  · intro x
    exact single_apply 1 0 1 x0 (by decide) (by decide) (by decide) (by decide) (by decide) x
  · intro x
    exact single_apply 2 0 0 x0 (by decide) (by decide) (by decide) (by decide) (by decide) x

end Cert.KernelIdeal.Block

end
-- ==== Proof.KernelValue.lean ====
/-
  The kernel's result array is the windowed argument array.

  The grid is 4 batches × 16 row tiles. At point `(b, r)` the input block is batch `b`, rows `32 r … 32 r + 31` of the
  argument `[4, 31, 512, 512]`, all channels and columns; the output block is the same batch and rows of the result
  `[4, 31, 7, 512, 512]`, all channels, window positions and columns. The body leaves the windowed input block
  (`Block.out_eq`), the channel map does not touch batch, row or column, so what the point writes back is its block
  of the windowed argument array; the 64 blocks cover the result array, which therefore ends as the windowed
  argument array.
-/
import proofs.«406440_j26912265076910_3_alg».proof.Proof.Gen.KernelIdeal.Value
import proofs.«406440_j26912265076910_3_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Cert.ChannelWindow

variable {F : FTy → Type} [FloatOps F]
variable (m : (ℓ : Loc nD τ sig) → Buf (Elt F) ℓ) (ρ : Dev nD → PrngReg)

/-- The two index maps over the grid: the input's batch and row-tile block indices are the output's, every other
    block index is zero, and the output's batch and row-tile indices stay in range. -/
theorem idx_facts : ∀ t : Fin cfg0.N,
    win0_0.index t (0 : Fin 4) = win0_1.index t (0 : Fin 5)
    ∧ win0_0.index t (1 : Fin 4) = 0
    ∧ win0_0.index t (2 : Fin 4) = win0_1.index t (3 : Fin 5)
    ∧ win0_0.index t (3 : Fin 4) = 0
    ∧ win0_1.index t (1 : Fin 5) = 0
    ∧ win0_1.index t (2 : Fin 5) = 0
    ∧ win0_1.index t (4 : Fin 5) = 0
    ∧ win0_1.index t (0 : Fin 5) ≤ 3
    ∧ win0_1.index t (3 : Fin 5) ≤ 15 :=
  (by decide +kernel : ∀ t : Fin grid0.N, _)

/-- Every (batch, row tile) pair is some point's. -/
theorem idx_onto : ∀ (q0 : Fin 4) (q3 : Fin 16), ∃ t : Fin cfg0.N, win0_1.index t = ![q0.val, 0, 0, q3.val, 0] :=
  (by decide +kernel : ∀ (q0 : Fin 4) (q3 : Fin 16), ∃ t : Fin grid0.N, win0_1.index t = ![q0.val, 0, 0, q3.val, 0])

/-- What point `t` writes back is block `t` of the windowed argument array. -/
theorem flushed_eq (c : Dev nD) (t : Fin cfg0.N) :
    (dats m 0 c).flushed 1 t
      = ((cfg0.win 1).blk t).view.read (Elt F) (windowed (B := 4) (H := 512) (W := 512) (V m c main_arg0)) := by
  rw [Cert.KernelIdeal.Value.flushed1_A, Block.out_eq]
  obtain ⟨e0, e1, e2, e3, e4, e5, e6, -, -⟩ := idx_facts t
  funext j
  show V m c main_arg0 (((cfg0.win 0).blk t).view.emb (srcIdx (B := 1) (H := 32) (W := 512) j))
    = V m c main_arg0 (srcIdx (B := 4) (H := 512) (W := 512) (((cfg0.win 1).blk t).view.emb j))
  refine congrArg (V m c main_arg0) (eq_srcIdx _ _ ?_ ?_ ?_ ?_)
  · show win0_0.index t (0 : Fin 4) * 1 + 1 * (j 0).val = win0_1.index t (0 : Fin 5) * 1 + 1 * (j 0).val
    rw [e0]
  · show win0_0.index t (1 : Fin 4) * 31 + 1 * srcChan (j 1).val (j 2).val
      = srcChan (win0_1.index t (1 : Fin 5) * 31 + 1 * (j 1).val) (win0_1.index t (2 : Fin 5) * 7 + 1 * (j 2).val)
    rw [e1, e4, e5]
    simp only [Nat.zero_mul, Nat.zero_add, Nat.one_mul]
  · show win0_0.index t (2 : Fin 4) * 32 + 1 * (j 3).val = win0_1.index t (3 : Fin 5) * 32 + 1 * (j 3).val
    rw [e2]
  · show win0_0.index t (3 : Fin 4) * 512 + 1 * (j 4).val = win0_1.index t (4 : Fin 5) * 512 + 1 * (j 4).val
    rw [e3, e6]

/-- An index of the result array is in point `t`'s block iff each coordinate is in the block's range on its axis. -/
theorem mem_blk (t : Fin cfg0.N) (i : S4x31x7x512x512.Idx) :
    i ∈ ((cfg0.win 1).blk t).view.set ↔ ∀ a : Fin 5, win0_1.index t a * S1x31x7x32x512.size a ≤ (i a).val
      ∧ (i a).val < win0_1.index t a * S1x31x7x32x512.size a + S1x31x7x32x512.size a := by
  show i ∈ ((View.whole main_v0).slice (win0_1.rect t)).set ↔ _
  rw [View.set_slice_whole, Rect.mem_set_unit]
  exact Iff.rfl

/-- Every index of the result array lies in the block of the point of its batch and its row tile. -/
theorem cover (i : S4x31x7x512x512.Idx) :
    ∃ t : Fin cfg0.N, (cfg0.win 1).flush t = true ∧ i ∈ ((cfg0.win 1).blk t).view.set := by
  have h0 : (i 0).val < 4 := (i 0).isLt
  have h1 : (i 1).val < 31 := (i 1).isLt
  have h2 : (i 2).val < 7 := (i 2).isLt
  have h3 : (i 3).val < 512 := (i 3).isLt
  have h4 : (i 4).val < 512 := (i 4).isLt
  obtain ⟨t, ht⟩ := idx_onto ⟨(i 0).val, h0⟩ ⟨(i 3).val / 32, by omega⟩
  have q0 : win0_1.index t (0 : Fin 5) = (i 0).val := congrFun ht 0
  have q1 : win0_1.index t (1 : Fin 5) = 0 := congrFun ht 1
  have q2 : win0_1.index t (2 : Fin 5) = 0 := congrFun ht 2
  have q3 : win0_1.index t (3 : Fin 5) = (i 3).val / 32 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 31 ≤ (i 1).val ∧ (i 1).val < win0_1.index t (1 : Fin 5) * 31 + 31; omega
  | ⟨2, _⟩ => show win0_1.index t (2 : Fin 5) * 7 ≤ (i 2).val ∧ (i 2).val < win0_1.index t (2 : Fin 5) * 7 + 7; omega
  | ⟨3, _⟩ => show win0_1.index t (3 : Fin 5) * 32 ≤ (i 3).val ∧ (i 3).val < win0_1.index t (3 : Fin 5) * 32 + 32; omega
  | ⟨4, _⟩ => show win0_1.index t (4 : Fin 5) * 512 ≤ (i 4).val ∧ (i 4).val < win0_1.index t (4 : Fin 5) * 512 + 512; omega

/-- The result array after the run is the windowed argument array. -/
theorem final (c : Dev nD) :
    (dats m 0 c).arrAt 1 cfg0.N = windowed (B := 4) (H := 512) (W := 512) (m ((c : Thread nD τ).loc main_arg0)) :=
  (dats m 0 c).arrAt_eq_of_cover 1 (windowed (B := 4) (H := 512) (W := 512) (V m c main_arg0))
    (fun t _ => flushed_eq m c t) cover

/-- Every weakly fair execution of the kernel's @main terminates with the result array at the windowed argument
    array and the argument unchanged. -/
theorem run : θ_run defs (onTc (τ := τ) (main (F := F))) ⟨m, fun _ => 0, ρ⟩ fun r => ∀ c : Dev nD,
      r.2.mem ((c : Thread nD τ).loc main_v0) = windowed (B := 4) (H := 512) (W := 512) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.ArrayValue

end
-- ==== Proof.RefRun.lean ====
/-
  The reference program's run, read back.

  Its @main is a straight line of fourteen host operations: the 31 × 7 table of source channels (a literal), the
  wrap of negative entries (`c < 0 ? c + 31 : c`, which leaves a table of non-negative entries as it is), the
  gather along the channel axis at that table, and the product with a constant array of ones. Every weakly fair
  execution terminates with the result buffer at the operations' composed term of the argument array, and the
  argument unchanged.
-/
import proofs.«406440_j26912265076910_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of source channels as the program holds it: entry `i` is the literal at `i`'s row-major position. -/
abbrev table : (⟨S31x7, .i32⟩ : BufTy).Contents (Elt F) := fun i => lit0 (S31x7.rowMajor i)

/-- The start indices of the gather: the table with its negative entries wrapped by 31, as a `[31, 7, 1]` array. -/
abbrev starts : (⟨S31x7x1, .i32⟩ : BufTy).Contents (Elt F) :=
  broadcastInDim S31x7x1 ![0, 1] bcast_S31x7_S31x7x1_0_1
    (select (cmpi .slt (table (F := F)) (broadcastInDim S31x7 ![] bcast_S_S31x7 (constantI S_ 32 0#32)))
      (addi (table (F := F)) (broadcastInDim S31x7 ![] bcast_S_S31x7 (constantI S_ 32 31#32))) (table (F := F)))

/-- The constant array of ones the gathered array is multiplied by. -/
abbrev ones : (⟨S4x31x7x512x512, .f32⟩ : BufTy).Contents (Elt F) :=
  broadcastInDim S4x31x7x512x512 ![0, 1, 2, 3, 4] bcast_S1x31x7x1x1_S4x31x7x512x512_0_1_2_3_4
    (broadcastInDim S1x31x7x1x1 ![1, 2] bcast_S31x7_S1x31x7x1x1_1_2 (constant S31x7 .f32 0x3F800000#32))

/-- The result as a function of the argument array: the gather at the start indices, times ones. -/
abbrev result (X : (⟨S4x31x512x512, .f32⟩ : BufTy).Contents (Elt F)) : (⟨S4x31x7x512x512, .f32⟩ : BufTy).Contents (Elt F) :=
  mulf (Host.gather gather_S4x31x512x512_S31x7x1_S4x31x7x512x512_034_1_n_n_1_2_41512512 X (starts (F := F))) (ones (F := F))

/-- @main's fourteen operations, in order. -/
abbrev ops : List (HloOp τ sig (Elt F)) :=
  [ nullary main_c (fun i => lit0 (S31x7.rowMajor i)),
    nullary main_cst (constant S31x7 .f32 0x3F800000#32),
    nullary main_c_0 (constantI S_ 32 0#32),
    unary main_c_0 main_v0 (broadcastInDim S31x7 ![] bcast_S_S31x7 : (⟨S_, .i32⟩ : BufTy).Contents (Elt F) → (⟨S31x7, .i32⟩ : BufTy).Contents (Elt F)),
    binary main_c main_v0 main_v1 (cmpi .slt : (⟨S31x7, .i32⟩ : BufTy).Contents (Elt F) → (⟨S31x7, .i32⟩ : BufTy).Contents (Elt F) → (⟨S31x7, .i1⟩ : BufTy).Contents (Elt F)),
    nullary main_c_1 (constantI S_ 32 31#32),
    unary main_c_1 main_v2 (broadcastInDim S31x7 ![] bcast_S_S31x7 : (⟨S_, .i32⟩ : BufTy).Contents (Elt F) → (⟨S31x7, .i32⟩ : BufTy).Contents (Elt F)),
    binary main_c main_v2 main_v3 (addi : (⟨S31x7, .i32⟩ : BufTy).Contents (Elt F) → (⟨S31x7, .i32⟩ : BufTy).Contents (Elt F) → (⟨S31x7, .i32⟩ : BufTy).Contents (Elt F)),
    ternary main_v1 main_v3 main_c main_v4 (select : (⟨S31x7, .i1⟩ : BufTy).Contents (Elt F) → (⟨S31x7, .i32⟩ : BufTy).Contents (Elt F) → (⟨S31x7, .i32⟩ : BufTy).Contents (Elt F) → (⟨S31x7, .i32⟩ : BufTy).Contents (Elt F)),
    unary main_v4 main_v5 (broadcastInDim S31x7x1 ![0, 1] bcast_S31x7_S31x7x1_0_1 : (⟨S31x7, .i32⟩ : BufTy).Contents (Elt F) → (⟨S31x7x1, .i32⟩ : BufTy).Contents (Elt F)),
    binary main_arg0 main_v5 main_v6 ((fun x i => Host.gather gather_S4x31x512x512_S31x7x1_S4x31x7x512x512_034_1_n_n_1_2_41512512 x i) : (⟨S4x31x512x512, .f32⟩ : BufTy).Contents (Elt F) → (⟨S31x7x1, .i32⟩ : BufTy).Contents (Elt F) → (⟨S4x31x7x512x512, .f32⟩ : BufTy).Contents (Elt F)),
    unary main_cst main_v7 (broadcastInDim S1x31x7x1x1 ![1, 2] bcast_S31x7_S1x31x7x1x1_1_2 : (⟨S31x7, .f32⟩ : BufTy).Contents (Elt F) → (⟨S1x31x7x1x1, .f32⟩ : BufTy).Contents (Elt F)),
    unary main_v7 main_v8 (broadcastInDim S4x31x7x512x512 ![0, 1, 2, 3, 4] bcast_S1x31x7x1x1_S4x31x7x512x512_0_1_2_3_4 : (⟨S1x31x7x1x1, .f32⟩ : BufTy).Contents (Elt F) → (⟨S4x31x7x512x512, .f32⟩ : BufTy).Contents (Elt F)),
    binary main_v6 main_v8 main_v9 (mulf : (⟨S4x31x7x512x512, .f32⟩ : BufTy).Contents (Elt F) → (⟨S4x31x7x512x512, .f32⟩ : BufTy).Contents (Elt F) → (⟨S4x31x7x512x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub ..⟩

/-- On every device, for any float values, from any memory with zero counters: every weakly fair execution of
    @main terminates with the result at `result` of the argument array and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v9).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.LibAxis1Gather.lean ====
/-
  A gather along axis 1 of a rank-4 array at a rank-2 table of indices, read at an index.

  What `x[:, idx]` of `x : [B, C, H, W]` at an integer table `idx : [R, K]` lowers to: a gather with offset axes
  `[0, 3, 4]`, collapsed axis `[1]`, start index map `[1]`, slices `[B, 1, H, W]` and the index vector on axis 2 of
  the start indices `[R, K, 1]`. Result entry `(b, r, k, h, w)` is `x (b, s, h, w)` with `s` the start index
  `idx[r, k, 0]` read as a signed integer and clamped into `[0, C − 1]`.
-/
import Idealize.ShloMosaic.Lib.ValueIdx

noncomputable section

namespace Cert.LibAxis1Gather

open Idealize.ShloMosaic Idealize.ShloMosaic.ValueIdx

variable {α : Type}

/-- Those dimension numbers for an operand `[B, C, H, W]`, start indices `[R, K, 1]` and result `[B, R, K, H, W]`. -/
abbrev dims (B C H W R K : Nat)
    (wf : GatherDims.WF ⟨4, ![B, C, H, W]⟩ ⟨3, ![R, K, 1]⟩ ⟨5, ![B, R, K, H, W]⟩ [0, 3, 4] [1] [] [1] [] 2 ![B, 1, H, W]) :
    GatherDims ⟨4, ![B, C, H, W]⟩ ⟨3, ![R, K, 1]⟩ ⟨5, ![B, R, K, H, W]⟩ where
  offsetDims := [0, 3, 4]
  collapsedSliceDims := [1]
  operandBatchingDims := []
  startIndicesBatchingDims := []
  startIndexMap := [1]
  indexVectorDim := 2
  sliceSizes := ![B, 1, H, W]
  wf := wf

/-- The start-indices index `[r, k, 0]` of result index `(b, r, k, h, w)`. -/
abbrev startAt {B H W R K : Nat} (y : (⟨5, ![B, R, K, H, W]⟩ : Shape).Idx) : (⟨3, ![R, K, 1]⟩ : Shape).Idx :=
  ix3 (y 1) (y 2) ⟨0, Nat.one_pos⟩

/-- THE GATHER READ AT `(b, r, k, h, w)`: the operand at `(b, s, h, w)`, `s` the start index `idx[r, k, 0]` read signed
    and clamped into `[0, C − 1]`. -/
theorem gather_axis1_apply {B C H W R K w : Nat} (hC : 0 < C)
    (wf : GatherDims.WF ⟨4, ![B, C, H, W]⟩ ⟨3, ![R, K, 1]⟩ ⟨5, ![B, R, K, H, W]⟩ [0, 3, 4] [1] [] [1] [] 2 ![B, 1, H, W])
    (x : (⟨4, ![B, C, H, W]⟩ : Shape).Idx → α) (idx : IVec ⟨3, ![R, K, 1]⟩ w) (y : (⟨5, ![B, R, K, H, W]⟩ : Shape).Idx) :
    Host.gather (dims B C H W R K wf) x idx y
      = x (ix4 (y 0) ⟨min (idx (startAt y)).toInt.toNat (C - 1), by omega⟩ (y 3) (y 4)) := by
  unfold Host.gather
  congr 1
  funext a
  refine Fin.ext ?_
  show (dims B C H W R K wf).start y idx a + (dims B C H W R K wf).batchCoord y a + (dims B C H W R K wf).offCoord y a = _
  rw [GatherDims.batchCoord_eq_zero _ _ _ List.not_mem_nil, Nat.add_zero]
  match a with
  | ⟨0, _⟩ =>
    have hn : (⟨0, by show 0 < 4; omega⟩ : Fin (⟨4, ![B, C, H, W]⟩ : Shape).rank) ∉ (dims B C H W R K wf).startIndexMap :=
      fun h => absurd (congrArg Fin.val (List.mem_singleton.mp h)) (by show ¬ (0 : Nat) = 1; omega)
    have hk : (⟨0, by show 0 < 4; omega⟩ : Fin (⟨4, ![B, C, H, W]⟩ : Shape).rank) ∈ (dims B C H W R K wf).sKept :=
      (GatherDims.mem_sKept _ _).mpr ⟨fun h => absurd (congrArg Fin.val (List.mem_singleton.mp h)) (by show ¬ (0 : Nat) = 1; omega), List.not_mem_nil⟩
    unfold GatherDims.start GatherDims.offCoord
    rw [dif_neg hn, dif_pos hk, Nat.zero_add]
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by show 1 < 4; omega⟩ : Fin (⟨4, ![B, C, H, W]⟩ : Shape).rank) ∈ (dims B C H W R K wf).startIndexMap from List.mem_singleton.mpr rfl)]
    have hsi : (dims B C H W R K wf).siIdx y ⟨List.idxOf (⟨1, by show 1 < 4; omega⟩ : Fin (⟨4, ![B, C, H, W]⟩ : Shape).rank) (dims B C H W R K wf).startIndexMap,
        List.idxOf_lt_length_iff.2 (List.mem_singleton.mpr rfl)⟩ = startAt y := by
      funext b; refine Fin.ext ?_
      match b with
      | ⟨0, _⟩ => rfl
      | ⟨1, _⟩ => rfl
      | ⟨2, _⟩ => rfl
    rw [hsi]
    rfl
  | ⟨2, _⟩ =>
    have hn : (⟨2, by show 2 < 4; omega⟩ : Fin (⟨4, ![B, C, H, W]⟩ : Shape).rank) ∉ (dims B C H W R K wf).startIndexMap :=
      fun h => absurd (congrArg Fin.val (List.mem_singleton.mp h)) (by show ¬ (2 : Nat) = 1; omega)
    have hk : (⟨2, by show 2 < 4; omega⟩ : Fin (⟨4, ![B, C, H, W]⟩ : Shape).rank) ∈ (dims B C H W R K wf).sKept :=
      (GatherDims.mem_sKept _ _).mpr ⟨fun h => absurd (congrArg Fin.val (List.mem_singleton.mp h)) (by show ¬ (2 : Nat) = 1; omega), List.not_mem_nil⟩
    unfold GatherDims.start GatherDims.offCoord
    rw [dif_neg hn, dif_pos hk, Nat.zero_add]
    rfl
  | ⟨3, _⟩ =>
    have hn : (⟨3, by show 3 < 4; omega⟩ : Fin (⟨4, ![B, C, H, W]⟩ : Shape).rank) ∉ (dims B C H W R K wf).startIndexMap :=
      fun h => absurd (congrArg Fin.val (List.mem_singleton.mp h)) (by show ¬ (3 : Nat) = 1; omega)
    have hk : (⟨3, by show 3 < 4; omega⟩ : Fin (⟨4, ![B, C, H, W]⟩ : Shape).rank) ∈ (dims B C H W R K wf).sKept :=
      (GatherDims.mem_sKept _ _).mpr ⟨fun h => absurd (congrArg Fin.val (List.mem_singleton.mp h)) (by show ¬ (3 : Nat) = 1; omega), List.not_mem_nil⟩
    unfold GatherDims.start GatherDims.offCoord
    rw [dif_neg hn, dif_pos hk, Nat.zero_add]
    rfl

end Cert.LibAxis1Gather

end
-- ==== Proof.RefValue.lean ====
/-
  The reference's result, index by index, is the windowed array.

  The gather's start index for output channel `c` and window position `j` is the table's entry at row-major position
  `7 c + j`, wrapped by 31 if negative; every entry is one of `0 … 30`, the wrap does nothing, the clamp into
  `[0, 30]` does nothing, and the entry is the reflected channel `srcChan c j` (decided over the 217 positions). The
  gathered entry `(b, c, j, h, w)` is therefore `X (b, srcChan c j, h, w)`, and the product with the constant `1`
  leaves it: `x · 1 = x` for every extended real.
-/
import proofs.«406440_j26912265076910_3_alg».proof.Proof.RefRun
import proofs.«406440_j26912265076910_3_alg».proof.Proof.LibAxis1Gather
import proofs.«406440_j26912265076910_3_alg».proof.Proof.ChannelWindow
import Idealize.ShloMosaic.Lib.Pipeline.Value
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.ValueIdx
open Cert.ChannelWindow Cert.LibAxis1Gather

variable {F : FTy → Type} [FloatOps F]

/-- The start index at row-major position `q` of the table: the entry, plus 31 if it is negative. -/
def wrapped (q : Fin 217) : BitVec 32 :=
  Scalar.select (IntOp.cmpi .slt (lit0 q) 0#32) (IntOp.addi (lit0 q) 31#32) (lit0 q)

/-- Read signed and clamped into `[0, 30]`, the start index at position `q = 7 c + j` is the reflected channel. -/
theorem wrapped_src : ∀ q : Fin 217, min (wrapped q).toInt.toNat (31 - 1) = srcChan (q.val / 7) (q.val % 7) := by
  decide +kernel

/-- The start indices at `[c, j, 0]`: the wrapped entry at the row-major position of `(c, j)`. -/
theorem starts_apply (r : Fin 31) (k : Fin 7) :
    starts (F := F) (ix3 r k ⟨0, Nat.one_pos⟩) = wrapped (S31x7.rowMajor (ix2 r k)) := by
  refine (broadcastInDim_apply _ _ _ (ix3 r k ⟨0, Nat.one_pos⟩) (ix2 r k) ?_).trans rfl
  intro a
  match a with
  | ⟨0, _⟩ => rfl
  | ⟨1, _⟩ => rfl

/-- Read signed and clamped, the start index at `[c, j, 0]` is the reflected channel `srcChan c j`. -/
theorem start_chan (r : Fin 31) (k : Fin 7) :
    min (starts (F := F) (ix3 r k ⟨0, Nat.one_pos⟩)).toInt.toNat (31 - 1) = srcChan r.val k.val := by
  have h1 : r.val < 31 := r.isLt
  have h2 : k.val < 7 := k.isLt
  have hq : (S31x7.rowMajor (ix2 r k)).val = r.val * 7 + k.val := Shape.rowMajor_val_two _
  refine (congrArg (fun b : BitVec 32 => min b.toInt.toNat (31 - 1)) (starts_apply (F := F) r k)).trans ?_
  refine (wrapped_src (S31x7.rowMajor (ix2 r k))).trans ?_
  have e1 : (S31x7.rowMajor (ix2 r k)).val / 7 = r.val := by omega
  have e2 : (S31x7.rowMajor (ix2 r k)).val % 7 = k.val := by omega
  exact congrArg₂ srcChan e1 e2

/-- The constant `1.0` denotes the real one. -/
theorem ofBits_one : Ideal.ofBits .f32 0x3F800000#32 = 1 := by
  simp [Ideal.ofBits, Ideal.ieee, -EReal.coe_mul]; norm_num

/-- The reference's result at the ideal instance is the windowed argument array. -/
theorem result_eq (X : (⟨S4x31x512x512, .f32⟩ : BufTy).Contents (Elt Ideal)) :
    result (F := Ideal) X = windowed (B := 4) (H := 512) (W := 512) X := by
  funext y
  show Host.gather gather_S4x31x512x512_S31x7x1_S4x31x7x512x512_034_1_n_n_1_2_41512512 X (starts (F := Ideal)) y
      * Ideal.ofBits .f32 0x3F800000#32 = _
  rw [ofBits_one, mul_one]
  refine (gather_axis1_apply (B := 4) (C := 31) (H := 512) (W := 512) (R := 31) (K := 7) (by omega) _ X (starts (F := Ideal)) y).trans ?_
  rw [windowed_apply]
  refine congrArg X (eq_srcIdx _ _ rfl ?_ rfl rfl)
  exact start_chan (F := Ideal) ⟨(y 1).val, (y 1).isLt⟩ ⟨(y 2).val, (y 2).isLt⟩

end Cert.ReferenceIdeal.RefValue

end
-- ==== Proof.lean ====
/-
  The channel window with reflected ends: a Pallas kernel of static slice copies against a gather by a constant
  table.

  For `x : [4, 31, 512, 512]` both programs produce `[4, 31, 7, 512, 512]` with entry `(b, c, j, h, w)` equal to
  `x (b, srcChan c j, h, w)`, where `srcChan c j` is `c + j − 3` reflected into `[0, 30]` with the edge channel
  repeated (Proof/ChannelWindow.lean). The kernel copies, per (batch, row tile), runs of consecutive channels of its
  input block into the output block (Proof/SlabRead.lean, Proof/KernelBlock.lean), and the 64 output blocks tile the
  result (Proof/KernelValue.lean). The reference gathers along the channel axis at a literal 31 × 7 table whose
  entries are those channels, after a wrap of negative entries that leaves the table as it is, and multiplies by an
  array of ones (Proof/RefRun.lean, Proof/LibAxis1Gather.lean, Proof/RefValue.lean). At the ideal instance the
  product with one is the identity on the extended reals, so the two results are one function of the argument; no
  finiteness of the input is needed. The idealization rewrote nothing, so `preserves` is trivial.
-/
import proofs.«406440_j26912265076910_3_alg».proof.Defs
import proofs.«406440_j26912265076910_3_alg».proof.Proof.Gen.Kernel
import proofs.«406440_j26912265076910_3_alg».proof.Proof.Gen.Kernel.Skeleton
import proofs.«406440_j26912265076910_3_alg».proof.Proof.Gen.Kernel.Launch
import proofs.«406440_j26912265076910_3_alg».proof.Proof.Gen.Kernel.Points
import proofs.«406440_j26912265076910_3_alg».proof.Proof.Gen.Kernel.Frame
import proofs.«406440_j26912265076910_3_alg».proof.Proof.Gen.KernelIdeal
import proofs.«406440_j26912265076910_3_alg».proof.Proof.Gen.KernelIdeal.Skeleton
import proofs.«406440_j26912265076910_3_alg».proof.Proof.Gen.KernelIdeal.Launch
import proofs.«406440_j26912265076910_3_alg».proof.Proof.Gen.KernelIdeal.Points
import proofs.«406440_j26912265076910_3_alg».proof.Proof.Gen.KernelIdeal.Frame
import proofs.«406440_j26912265076910_3_alg».proof.Proof.Gen.ReferenceIdeal
import proofs.«406440_j26912265076910_3_alg».proof.Proof.Gen.Pre_finite_inputs
import proofs.«406440_j26912265076910_3_alg».proof.Proof.KernelValue
import proofs.«406440_j26912265076910_3_alg».proof.Proof.RefValue
import Idealize.ShloMosaic.Adequacy
import Idealize.ShloMosaic.Init

noncomputable section

namespace Cert.Proof

open Idealize.ShloMosaic Idealize.SL.Sem Cert.ChannelWindow

/-- The word-level kernel runs and leaves its argument as it was. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the argument, the kernel's result array and the reference's are both the windowed
    argument array. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  exact (Cert.ReferenceIdeal.RefValue.result_eq _).trans
    (congrArg (windowed (B := 4) (H := 512) (W := 512)) (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
